-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S2x1600000 : Shape := ⟨2, ![2, 1600000]⟩
abbrev S1024x64 : Shape := ⟨2, ![1024, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x1024 .f32) (main_arg1 : IVec S2x1600000 32) (main_arg2 : FVec F S1024x64 .f32) (main_arg3 : FVec F S64 .f32) (main_arg4 : FVec F S64x32 .f32) (main_arg5 : FVec F S32 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S1024x64 .f32 := Host.absf main_arg2
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x1024 : Shape := ⟨2, ![100000, 1024]⟩
abbrev S2x1600000 : Shape := ⟨2, ![2, 1600000]⟩
abbrev S1024x64 : Shape := ⟨2, ![1024, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x1024 : Shape := ⟨2, ![5000, 1024]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 89
  | .vmem => 10
  | .smem => 0
  | _ => 0

abbrev bufTy : (tb : Table) → Fin (tcTables nBuf tb) → BufTy
  | .hbm, ⟨0, _⟩ => ⟨S100000x1024, .f32⟩
  | .hbm, ⟨1, _⟩ => ⟨S2x1600000, .i32⟩
  | .hbm, ⟨2, _⟩ => ⟨S1024x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .local _ .vmem, ⟨0, _⟩ => ⟨S5000x1024, .f32⟩
  | .local _ .vmem, ⟨1, _⟩ => ⟨S5000x1024, .f32⟩
  | .local _ .vmem, ⟨2, _⟩ => ⟨S1024x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x1024_S5000x1024_0_0 : ∀ a, (![0, 0] : Fin 2 → Nat) a + S5000x1024.size a ≤ S5000x1024.size a
  h_S5000x1024 : 0 < S5000x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x1024_S1024x64_S5000x64_1_0_0_1_n_n_wf : DotDims.WF S5000x1024 S1024x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1024.size a ≤ S100000x1024.size a
  hwx0_0 : ∀ i : grid0.Coords, EltTy.bits .f32 = 32 ∨ (Rect.block (s := S100000x1024) S5000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x1024_S1024x64_S5000x64_1_0_0_1_n_n : DotDims S5000x1024 S1024x64 S5000x64 where
  lhsContracting := [1]
  rhsContracting := [0]
  lhsNonContracting := [0]
  rhsNonContracting := [1]
  lhsBatch := []
  rhsBatch := []
  wf := dot_S5000x1024_S1024x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x1024 : Shape := ⟨2, ![100000, 1024]⟩
abbrev S2x1600000 : Shape := ⟨2, ![2, 1600000]⟩
abbrev S1024x64 : Shape := ⟨2, ![1024, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S100000x1024, .f32⟩
  | .hbm, ⟨1, _⟩ => ⟨S2x1600000, .i32⟩
  | .hbm, ⟨2, _⟩ => ⟨S1024x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S100000x32, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1024_S1024x64_S100000x64_1_0_0_1_n_n_wf : DotDims.WF S100000x1024 S1024x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1024_S1024x64_S100000x64_1_0_0_1_n_n : DotDims S100000x1024 S1024x64 S100000x64 where
  lhsContracting := [1]
  rhsContracting := [0]
  lhsNonContracting := [0]
  rhsNonContracting := [1]
  lhsBatch := []
  rhsBatch := []
  wf := dot_S100000x1024_S1024x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Spec.lean ====
/-
  The one function both programs compute twice: a matrix product over the extended reals, written index by
  index. For a left factor `x` of `M` rows and `K` columns and a right factor `w` of `K` rows and `N` columns the
  entry at row `r`, column `q` is the sum over `k` of `x[r, k] * w[k, q]`. Addition of extended reals is
  commutative and associative, so the sum does not depend on the order or the grouping of its terms: a product
  computed block of rows by block of rows, and one computed in a single contraction, are this same function.
-/
import Idealize.ShloMosaic.PureOps.Ideal
import Idealize.ShloMosaic.Lib.ValueIdx

noncomputable section

namespace Cert.Gcn

open Idealize.ShloMosaic Idealize.ShloMosaic.ValueIdx

/-- The matrix product `x · w`, entry by entry: row `i 0` of `x` against column `i 1` of `w`. -/
def rowsDot {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsDot_apply {M K N : Nat} (x : (⟨2, ![M, K]⟩ : Shape).Idx → EReal) (w : (⟨2, ![K, N]⟩ : Shape).Idx → EReal)
    (r : Fin M) (q : Fin N) : rowsDot x w (ix2 r q) = ∑ k : Fin K, x (ix2 r k) * w (ix2 k q) := rfl

end Cert.Gcn

end
-- ==== Proof.Stages.lean ====
/-
  The two graph-convolution layers as functions of the TRANSFORMED FEATURES.
  Both programs compute, twice, `out[d] = b + Σ_{edges e into d} norm[e] · P[src e]`, where `P = features · W` is the
  dense transform, `src`, `dst` list the 1,600,000 edges followed by the 100,000 self loops, and
  `norm[e] = deg[src e]^(-1/2) · deg[dst e]^(-1/2)` (zero where a degree is zero). Everything but the dense transform
  is the same host arithmetic in both programs — the same gather of rows of `P`, the same scaling, the same
  scatter-add into the destination rows, the same bias — so it is named here once, as a function of `P`:
  `hidden` is the first layer followed by the rectifier, `output` the second layer. The reference's result is then
  `output (hidden (x · W1) · W2)` with each product a single contraction; the kernel's is the same expression with
  each product computed row block by row block.
-/
import proofs.«176696_j38070590112102_1_alg».proof.Proof.RefRead
import proofs.«176696_j38070590112102_1_alg».proof.Proof.Spec

noncomputable section

namespace Cert.Gcn

open Cert.ReferenceIdeal Cert.ReferenceIdeal.Gen Cert.ReferenceIdeal.ReadP Idealize.ShloMosaic Idealize.ShloMosaic.TcCoe Idealize.SL.Sem

variable {F : FTy → Type} [FloatOps F]

/-- The first layer after its dense transform `p` (one row of 64 channels per node): gather the source rows of the
    1,700,000 edges, scale edge `e` by `norm[e]`, add each into its destination row, add the bias `x3`, and take the
    maximum with zero. The edge lists and `norm` depend only on the edge array `x1`. -/
def hidden (x1 : (⟨S2x1600000, .i32⟩ : BufTy).Contents (Elt F)) (x3 : (⟨S64, .f32⟩ : BufTy).Contents (Elt F)) (p : (⟨S100000x64, .f32⟩ : BufTy).Contents (Elt F)) :
    (⟨S100000x64, .f32⟩ : BufTy).Contents (Elt F) :=
  maximumf
    (addf
      (Host.scatterAdd scatter_S100000x64_S1700000x1_S1700000x64_1_0_0_1 (val_main_v41 (F := F)) (val_main_v42 (F := F) x1)
        (mulf (Host.gather gather_S100000x64_S1700000x1_S1700000x64_1_0_n_n_0_1_164 p (val_main_v36 (F := F) x1)) (val_main_v39 (F := F) x1)))
      (val_main_v45 (F := F) x3))
    (val_main_call1_v0 (F := F))

/-- The second layer after its dense transform `p` (32 channels per node): the same gather, scaling by `norm`,
    scatter-add into the destination rows and bias `x5`; no rectifier. -/
def output (x1 : (⟨S2x1600000, .i32⟩ : BufTy).Contents (Elt F)) (x5 : (⟨S32, .f32⟩ : BufTy).Contents (Elt F)) (p : (⟨S100000x32, .f32⟩ : BufTy).Contents (Elt F)) :
    (⟨S100000x32, .f32⟩ : BufTy).Contents (Elt F) :=
  addf
    (Host.scatterAdd scatter_S100000x32_S1700000x1_S1700000x32_1_0_0_1 (val_main_v82 (F := F)) (val_main_v83 (F := F) x1)
      (mulf (Host.gather gather_S100000x32_S1700000x1_S1700000x32_1_0_n_n_0_1_132 p (val_main_v77 (F := F) x1)) (val_main_v80 (F := F) x1)))
    (val_main_v86 (F := F) x5)

/-- The reference's hidden features are `hidden` of its first contraction. -/
theorem ref_hidden (x0 : (⟨S100000x1024, .f32⟩ : BufTy).Contents (Elt F)) (x1 : (⟨S2x1600000, .i32⟩ : BufTy).Contents (Elt F)) (x2 : (⟨S1024x64, .f32⟩ : BufTy).Contents (Elt F)) (x3 : (⟨S64, .f32⟩ : BufTy).Contents (Elt F)) :
    val_main_v47 (F := F) x0 x1 x2 x3
      = hidden x1 x3 (Host.dotGeneral dot_S100000x1024_S1024x64_S100000x64_1_0_0_1_n_n none x0 x2) := rfl

/-- The reference's result is `output` of its second contraction, of `hidden` of its first. -/
theorem ref_output (x0 : (⟨S100000x1024, .f32⟩ : BufTy).Contents (Elt F)) (x1 : (⟨S2x1600000, .i32⟩ : BufTy).Contents (Elt F)) (x2 : (⟨S1024x64, .f32⟩ : BufTy).Contents (Elt F)) (x3 : (⟨S64, .f32⟩ : BufTy).Contents (Elt F))
    (x4 : (⟨S64x32, .f32⟩ : BufTy).Contents (Elt F)) (x5 : (⟨S32, .f32⟩ : BufTy).Contents (Elt F)) :
    val_main_v87 (F := F) x0 x1 x2 x3 x4 x5
      = output x1 x5 (Host.dotGeneral dot_S100000x64_S64x32_S100000x32_1_0_0_1_n_n none
          (hidden x1 x3 (Host.dotGeneral dot_S100000x1024_S1024x64_S100000x64_1_0_0_1_n_n none x0 x2)) x4) := rfl

/-- The reference recomputes `norm` for its second layer from the same edge array: the same function. -/
theorem ref_norm_again (x1 : (⟨S2x1600000, .i32⟩ : BufTy).Contents (Elt F)) : val_main_v70 (F := F) x1 = val_main_v29 (F := F) x1 := rfl

/-! ## The host's contraction is the matrix product, at the extended reals -/

/-- `x0 · x2` (1024 contracted): the host's `dot_general` is the sum over `k` of `x0[r, k] · x2[k, q]`: its contracted index runs over one axis of 1024, its left index keeps the row and its right index the column. -/
theorem dot1024_eq (x0 : (⟨S100000x1024, .f32⟩ : BufTy).Contents (Elt Ideal)) (x2 : (⟨S1024x64, .f32⟩ : BufTy).Contents (Elt Ideal)) :
    Host.dotGeneral (F := Ideal) (φ₁ := .f32) (φ₂ := .f32) dot_S100000x1024_S1024x64_S100000x64_1_0_0_1_n_n none x0 x2 = rowsDot (M := 100000) (K := 1024) (N := 64) x0 x2 := by
  funext i
  show _ = ∑ k : Fin 1024, x0 (ValueIdx.ix2 (i 0) k) * x2 (ValueIdx.ix2 k (i 1))
  simp only [Host.dotGeneral]
  rw [Ideal.dotGeneral_apply, ← Equiv.sum_comp (ValueIdx.contrEquiv1 dot_S100000x1024_S1024x64_S100000x64_1_0_0_1_n_n 1024 rfl rfl).symm]
  refine Finset.sum_congr rfl fun k _ => ?_
  have hk := ValueIdx.contrEquiv1_symm_val dot_S100000x1024_S1024x64_S100000x64_1_0_0_1_n_n 1024 rfl rfl k
  have el : dot_S100000x1024_S1024x64_S100000x64_1_0_0_1_n_n.lhsIdx i ((ValueIdx.contrEquiv1 dot_S100000x1024_S1024x64_S100000x64_1_0_0_1_n_n 1024 rfl rfl).symm k) = ValueIdx.ix2 (i 0) k := funext fun a => Fin.ext (by
    match a with
    | ⟨0, _⟩ => exact lhs_main_v30_0 _ _
    | ⟨1, _⟩ => exact (lhs_main_v30_1 _ _).trans hk)
  have er : dot_S100000x1024_S1024x64_S100000x64_1_0_0_1_n_n.rhsIdx i ((ValueIdx.contrEquiv1 dot_S100000x1024_S1024x64_S100000x64_1_0_0_1_n_n 1024 rfl rfl).symm k) = ValueIdx.ix2 k (i 1) := funext fun a => Fin.ext (by
    match a with
    | ⟨0, _⟩ => exact (rhs_main_v30_0 _ _).trans hk
    | ⟨1, _⟩ => exact rhs_main_v30_1 _ _)
  rw [el, er]
  rfl

/-- `h · x4` (64 contracted), the same. -/
theorem dot64_eq (h : (⟨S100000x64, .f32⟩ : BufTy).Contents (Elt Ideal)) (x4 : (⟨S64x32, .f32⟩ : BufTy).Contents (Elt Ideal)) :
    Host.dotGeneral (F := Ideal) (φ₁ := .f32) (φ₂ := .f32) dot_S100000x64_S64x32_S100000x32_1_0_0_1_n_n none h x4 = rowsDot (M := 100000) (K := 64) (N := 32) h x4 := by
  funext i
  show _ = ∑ k : Fin 64, h (ValueIdx.ix2 (i 0) k) * x4 (ValueIdx.ix2 k (i 1))
  simp only [Host.dotGeneral]
  rw [Ideal.dotGeneral_apply, ← Equiv.sum_comp (ValueIdx.contrEquiv1 dot_S100000x64_S64x32_S100000x32_1_0_0_1_n_n 64 rfl rfl).symm]
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx i ((ValueIdx.contrEquiv1 dot_S100000x64_S64x32_S100000x32_1_0_0_1_n_n 64 rfl rfl).symm k) = ValueIdx.ix2 (i 0) k := funext fun a => Fin.ext (by
    match a with
    | ⟨0, _⟩ => exact lhs_main_v71_0 _ _
    | ⟨1, _⟩ => exact (lhs_main_v71_1 _ _).trans hk)
  have er : dot_S100000x64_S64x32_S100000x32_1_0_0_1_n_n.rhsIdx i ((ValueIdx.contrEquiv1 dot_S100000x64_S64x32_S100000x32_1_0_0_1_n_n 64 rfl rfl).symm k) = ValueIdx.ix2 k (i 1) := funext fun a => Fin.ext (by
    match a with
    | ⟨0, _⟩ => exact (rhs_main_v71_0 _ _).trans hk
    | ⟨1, _⟩ => exact rhs_main_v71_1 _ _)
  rw [el, er]
  rfl

end Cert.Gcn

end
-- ==== Proof.KernelHost.lean ====
/-
  The kernel program's host arithmetic read back. Between its two matrix products the program runs the same host
  operations as the reference: the edge lists (edges, then self loops), the degree count, `norm`, and per layer the
  gather of source rows, the scaling, the scatter-add into destination rows and the bias. Each buffer a later
  stretch reads is named here at the boundary where it is read: the edge lists and `norm` are written before the
  first product and survive both products untouched (neither region writes them); the first layer's output feeds
  the second product; the program's result is the second layer of the second product.
-/
import proofs.«176696_j38070590112102_1_alg».proof.Proof.Gen.KernelIdeal.Frame
import proofs.«176696_j38070590112102_1_alg».proof.Proof.Stages

set_option maxRecDepth 16384

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first product: the edge lists, `norm`, and the arguments -/

/-- Source node of each of the 1,700,000 edges (the given edges, then one self loop per node). -/
theorem src_entry (c : Dev nD) : W3 m ρ c (Proc.devRef .tc main_v3) = Cert.ReferenceIdeal.ReadP.val_main_v3 (F := F) (m ((c.tc : Thread nD τ).loc main_arg1)) := by
  show StableHlo.after hostOps0_2 (StableHlo.after hostOps0_1 (StableHlo.after hostOps0 (W0 m ρ c))) (Proc.devRef .tc main_v3) = _
  after_results_simp
  rfl

/-- Destination node of each edge. -/
theorem dst_entry (c : Dev nD) : W3 m ρ c (Proc.devRef .tc main_v6) = Cert.ReferenceIdeal.ReadP.val_main_v6 (F := F) (m ((c.tc : Thread nD τ).loc main_arg1)) := by
  show StableHlo.after hostOps0_2 (StableHlo.after hostOps0_1 (StableHlo.after hostOps0 (W0 m ρ c))) (Proc.devRef .tc main_v6) = _
  after_results_simp
  rfl

/-- `norm[e] = deg[src e]^(-1/2) · deg[dst e]^(-1/2)`, zero where a degree is zero. -/
theorem norm_entry (c : Dev nD) : W3 m ρ c (Proc.devRef .tc main_v29) = Cert.ReferenceIdeal.ReadP.val_main_v29 (F := F) (m ((c.tc : Thread nD τ).loc main_arg1)) := by
  show StableHlo.after hostOps0_2 (StableHlo.after hostOps0_1 (StableHlo.after hostOps0 (W0 m ρ c))) (Proc.devRef .tc main_v29) = _
  after_results_simp
  rfl

/-- The node features, as launched. -/
theorem x_entry (c : Dev nD) : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results_simp

/-- The first layer's weights, as launched. -/
theorem w1_entry (c : Dev nD) : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results_simp

/-- The first layer's bias, as launched. -/
theorem bias1_entry (c : Dev nD) : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results_simp

/-- The second layer's weights, as launched. -/
theorem w2_entry (c : Dev nD) : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  after_results_simp

/-- The second layer's bias, as launched. -/
theorem bias2_entry (c : Dev nD) : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  after_results_simp

/-! ## Across the first product: it writes its own output only -/

theorem src_mid (c : Dev nD) : W4 m ρ c (Proc.devRef .tc main_v3) = Cert.ReferenceIdeal.ReadP.val_main_v3 (F := F) (m ((c.tc : Thread nD τ).loc main_arg1)) :=
  (W4_of_ne m ρ c main_v3 (by decide)).trans (src_entry m ρ c)

theorem dst_mid (c : Dev nD) : W4 m ρ c (Proc.devRef .tc main_v6) = Cert.ReferenceIdeal.ReadP.val_main_v6 (F := F) (m ((c.tc : Thread nD τ).loc main_arg1)) :=
  (W4_of_ne m ρ c main_v6 (by decide)).trans (dst_entry m ρ c)

theorem norm_mid (c : Dev nD) : W4 m ρ c (Proc.devRef .tc main_v29) = Cert.ReferenceIdeal.ReadP.val_main_v29 (F := F) (m ((c.tc : Thread nD τ).loc main_arg1)) :=
  (W4_of_ne m ρ c main_v29 (by decide)).trans (norm_entry m ρ c)

theorem bias1_mid (c : Dev nD) : W4 m ρ c (Proc.devRef .tc main_arg3) = (m ((c.tc : Thread nD τ).loc main_arg3)) :=
  (W4_of_ne m ρ c main_arg3 (by decide)).trans (bias1_entry m ρ c)

theorem w2_mid (c : Dev nD) : W4 m ρ c (Proc.devRef .tc main_arg4) = (m ((c.tc : Thread nD τ).loc main_arg4)) :=
  (W4_of_ne m ρ c main_arg4 (by decide)).trans (w2_entry m ρ c)

theorem bias2_mid (c : Dev nD) : W4 m ρ c (Proc.devRef .tc main_arg5) = (m ((c.tc : Thread nD τ).loc main_arg5)) :=
  (W4_of_ne m ρ c main_arg5 (by decide)).trans (bias2_entry m ρ c)

/-! ## The first layer -/

/-- The features the second product takes: the first layer (gather, scale by `norm`, scatter-add, bias, rectifier)
    of what the first product left in its output array. -/
theorem hidden_entry (c : Dev nD) :
    W6 m ρ c (Proc.devRef .tc main_v47)
      = Cert.Gcn.hidden (F := F) (m ((c.tc : Thread nD τ).loc main_arg1)) (m ((c.tc : Thread nD τ).loc main_arg3)) ((dat0 (V3 m ρ) c).arrAt 2 cfg0.N) := by
  show StableHlo.after hostOps1_1 (StableHlo.after hostOps1 (W4 m ρ c)) (Proc.devRef .tc main_v47) = _
  after_results_simp
  rw [src_mid, dst_mid, norm_mid, bias1_mid, show W4 m ρ c (Proc.devRef .tc main_v30) = _ from W4_arr m ρ c 2]
  rfl

theorem src_second (c : Dev nD) : W6 m ρ c (Proc.devRef .tc main_v3) = Cert.ReferenceIdeal.ReadP.val_main_v3 (F := F) (m ((c.tc : Thread nD τ).loc main_arg1)) := by
  show StableHlo.after hostOps1_1 (StableHlo.after hostOps1 (W4 m ρ c)) (Proc.devRef .tc main_v3) = _
  after_results_simp
  exact src_mid m ρ c

theorem dst_second (c : Dev nD) : W6 m ρ c (Proc.devRef .tc main_v6) = Cert.ReferenceIdeal.ReadP.val_main_v6 (F := F) (m ((c.tc : Thread nD τ).loc main_arg1)) := by
  show StableHlo.after hostOps1_1 (StableHlo.after hostOps1 (W4 m ρ c)) (Proc.devRef .tc main_v6) = _
  after_results_simp
  exact dst_mid m ρ c

theorem norm_second (c : Dev nD) : W6 m ρ c (Proc.devRef .tc main_v29) = Cert.ReferenceIdeal.ReadP.val_main_v29 (F := F) (m ((c.tc : Thread nD τ).loc main_arg1)) := by
  show StableHlo.after hostOps1_1 (StableHlo.after hostOps1 (W4 m ρ c)) (Proc.devRef .tc main_v29) = _
  after_results_simp
  exact norm_mid m ρ c

theorem w2_second (c : Dev nD) : W6 m ρ c (Proc.devRef .tc main_arg4) = (m ((c.tc : Thread nD τ).loc main_arg4)) := by
  show StableHlo.after hostOps1_1 (StableHlo.after hostOps1 (W4 m ρ c)) (Proc.devRef .tc main_arg4) = _
  after_results_simp
  exact w2_mid m ρ c

theorem bias2_second (c : Dev nD) : W6 m ρ c (Proc.devRef .tc main_arg5) = (m ((c.tc : Thread nD τ).loc main_arg5)) := by
  show StableHlo.after hostOps1_1 (StableHlo.after hostOps1 (W4 m ρ c)) (Proc.devRef .tc main_arg5) = _
  after_results_simp
  exact bias2_mid m ρ c

/-! ## Across the second product -/

theorem src_late (c : Dev nD) : W7 m ρ c (Proc.devRef .tc main_v3) = Cert.ReferenceIdeal.ReadP.val_main_v3 (F := F) (m ((c.tc : Thread nD τ).loc main_arg1)) :=
  (W7_of_ne m ρ c main_v3 (by decide)).trans (src_second m ρ c)

theorem dst_late (c : Dev nD) : W7 m ρ c (Proc.devRef .tc main_v6) = Cert.ReferenceIdeal.ReadP.val_main_v6 (F := F) (m ((c.tc : Thread nD τ).loc main_arg1)) :=
  (W7_of_ne m ρ c main_v6 (by decide)).trans (dst_second m ρ c)

theorem norm_late (c : Dev nD) : W7 m ρ c (Proc.devRef .tc main_v29) = Cert.ReferenceIdeal.ReadP.val_main_v29 (F := F) (m ((c.tc : Thread nD τ).loc main_arg1)) :=
  (W7_of_ne m ρ c main_v29 (by decide)).trans (norm_second m ρ c)

theorem bias2_late (c : Dev nD) : W7 m ρ c (Proc.devRef .tc main_arg5) = (m ((c.tc : Thread nD τ).loc main_arg5)) :=
  (W7_of_ne m ρ c main_arg5 (by decide)).trans (bias2_second m ρ c)

/-! ## The second layer: the program's result -/

/-- The result buffer at the last boundary: the second layer of what the second product left in its output array. -/
theorem result_exit (c : Dev nD) :
    W8 m ρ c (Proc.devRef .tc main_v64)
      = Cert.Gcn.output (F := F) (m ((c.tc : Thread nD τ).loc main_arg1)) (m ((c.tc : Thread nD τ).loc main_arg5)) ((dat1 (V6 m ρ) c).arrAt 2 cfg1.N) := by
  show StableHlo.after hostOps2 (W7 m ρ c) (Proc.devRef .tc main_v64) = _
  after_results_simp
  rw [src_late, dst_late, norm_late, bias2_late, show W7 m ρ c (Proc.devRef .tc main_v48) = _ from W7_arr m ρ c 2]
  rfl

end Cert.KernelIdeal.HostRead

end
-- ==== Proof.Region0.lean ====
/-
  The first launch of the kernel: the product of the 100000 × 1024 left factor and the 1024 × 64 right factor,
  computed twenty blocks of 5000 rows at a time. At each grid point the body multiplies one block of rows of the
  left factor by the whole right factor, starting from a zero accumulator, and the result is written to the same
  block of rows of the output. Entry (p, q) of such a block product is the sum over `k` of the left block at (p, k)
  times the right factor at (k, q); row p of block `t` is row `5000 t + p` of the left factor, so that entry is entry
  `(5000 t + p, q)` of the whole product. The twenty blocks tile the 100000 rows exactly, so after the launch the
  output array is the whole product, entry by entry.
-/
import proofs.«176696_j38070590112102_1_alg».proof.Proof.Gen.KernelIdeal.Frame
import proofs.«176696_j38070590112102_1_alg».proof.Proof.Spec
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-! ## One entry of a block product

The body multiplies a block of 5000 rows of the left factor by the whole right factor into a zero accumulator.
Its dimension numbers contract axis 1 of the left operand with axis 0 of the right one, so the operands of the
term `k` of entry (p, q) are the left block at (p, k) and the right factor at (k, q). -/

/-- The left operand's row is the entry's row. -/
theorem lhs_row (i : S5000x64.Idx) (q : dot_S5000x1024_S1024x64_S5000x64_1_0_0_1_n_n.contr.Idx) :
    (dot_S5000x1024_S1024x64_S5000x64_1_0_0_1_n_n.lhsIdx i q 0).val = (i 0).val := by
  unfold DotDims.lhsIdx
  rw [dif_neg (show ¬(0 : Fin S5000x1024.rank) ∈ dot_S5000x1024_S1024x64_S5000x64_1_0_0_1_n_n.lhsBatch by decide), dif_pos (show (0 : Fin S5000x1024.rank) ∈ dot_S5000x1024_S1024x64_S5000x64_1_0_0_1_n_n.lhsNonContracting by decide)]
  rfl
/-- The left operand's column is the contraction index. -/
theorem lhs_col (i : S5000x64.Idx) (q : dot_S5000x1024_S1024x64_S5000x64_1_0_0_1_n_n.contr.Idx) :
    (dot_S5000x1024_S1024x64_S5000x64_1_0_0_1_n_n.lhsIdx i q 1).val = (q ⟨0, by decide⟩).val :=
  dot_S5000x1024_S1024x64_S5000x64_1_0_0_1_n_n.lhsIdx_val_of_single rfl i q
/-- The right operand's row is the contraction index. -/
theorem rhs_row (i : S5000x64.Idx) (q : dot_S5000x1024_S1024x64_S5000x64_1_0_0_1_n_n.contr.Idx) :
    (dot_S5000x1024_S1024x64_S5000x64_1_0_0_1_n_n.rhsIdx i q 0).val = (q ⟨0, by decide⟩).val :=
  dot_S5000x1024_S1024x64_S5000x64_1_0_0_1_n_n.rhsIdx_val_of_single rfl i q
/-- The right operand's column is the entry's column. -/
theorem rhs_col (i : S5000x64.Idx) (q : dot_S5000x1024_S1024x64_S5000x64_1_0_0_1_n_n.contr.Idx) :
    (dot_S5000x1024_S1024x64_S5000x64_1_0_0_1_n_n.rhsIdx i q 1).val = (i 1).val := by
  unfold DotDims.rhsIdx
  rw [dif_neg (show ¬(1 : Fin S1024x64.rank) ∈ dot_S5000x1024_S1024x64_S5000x64_1_0_0_1_n_n.rhsBatch by decide), dif_pos (show (1 : Fin S1024x64.rank) ∈ dot_S5000x1024_S1024x64_S5000x64_1_0_0_1_n_n.rhsNonContracting by decide)]
  rfl

/-- Entry (p, q) of the body's product is the sum over `k` of the left block at (p, k) times the right factor at
    (k, q): the accumulator is the zero splat, and rounding the operands to bf16 is the identity on extended reals. -/
theorem pay_apply (x0 : Vec Ideal S5000x1024 .f32) (x1 : Vec Ideal S1024x64 .f32) (p : Fin 5000) (q : Fin 64) :
    k0_pay1 x0 x1 (ix2 p q) = ∑ k : Fin 1024, x0 (ix2 p k) * x1 (ix2 k q) := by
  unfold k0_pay1
  simp only [matmul]
  rw [Ideal.matmul_constant_zero_apply, ← Equiv.sum_comp (contrEquiv1 dot_S5000x1024_S1024x64_S5000x64_1_0_0_1_n_n 1024 rfl rfl).symm]
  refine Finset.sum_congr rfl fun k _ => ?_
  have hk := contrEquiv1_symm_val dot_S5000x1024_S1024x64_S5000x64_1_0_0_1_n_n 1024 rfl rfl k
  have el : dot_S5000x1024_S1024x64_S5000x64_1_0_0_1_n_n.lhsIdx (ix2 p q) ((contrEquiv1 dot_S5000x1024_S1024x64_S5000x64_1_0_0_1_n_n 1024 rfl rfl).symm k) = ix2 p k := funext fun a => Fin.ext (by
    match a with
    | ⟨0, _⟩ => exact lhs_row _ _
    | ⟨1, _⟩ => exact (lhs_col _ _).trans hk)
  have er : dot_S5000x1024_S1024x64_S5000x64_1_0_0_1_n_n.rhsIdx (ix2 p q) ((contrEquiv1 dot_S5000x1024_S1024x64_S5000x64_1_0_0_1_n_n 1024 rfl rfl).symm k) = ix2 k q := funext fun a => Fin.ext (by
    match a with
    | ⟨0, _⟩ => exact (rhs_row _ _).trans hk
    | ⟨1, _⟩ => exact rhs_col _ _)
  rw [el, er]
  rfl

/-! ## A block of the product is a block of the whole product

At grid point `t` the left factor's window holds rows `5000 t … 5000 t + 4999`, the right factor's window holds the
whole right factor, and the output's window is rows `5000 t … 5000 t + 4999` of the product. An element of a
block sits in its array, on each axis, at the block's index times the block's extent plus its coordinate inside
the block. -/

theorem zeros2 : (![0, 0] : Fin 2 → Nat) = fun _ => 0 := funext fun a => by fin_cases a <;> rfl

/-- The three index maps over the grid: the left factor's and the output's blocks are the point's own block of
    rows, at column block 0; the right factor's block is always block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- If row `j 0` of the left block is row `i 0` of the left factor and column `j 1` of the right block is column `i 1`
    of the right factor, entry `j` of the block product is entry `i` of the whole product: the two are the same sum. -/
theorem block_entry (a0 : S100000x1024.Idx → EReal) (a2 : S1024x64.Idx → EReal)
    (x0 : Vec Ideal S5000x1024 .f32) (x1 : Vec Ideal S1024x64 .f32) (j : S5000x64.Idx) (i : S100000x64.Idx)
    (h0 : ∀ k : Fin 1024, x0 (ix2 (j 0) k) = a0 (ix2 (i 0) k))
    (h1 : ∀ k : Fin 1024, x1 (ix2 k (j 1)) = a2 (ix2 k (i 1))) :
    k0_pay1 x0 x1 j = Cert.Gcn.rowsDot (M := 100000) (K := 1024) (N := 64) a0 a2 i := by
  obtain ⟨p, q, rfl⟩ : ∃ (p : Fin 5000) (q : Fin 64), j = ix2 p q := ⟨j 0, j 1, eq_ix2 j⟩
  rw [pay_apply]
  exact Finset.sum_congr rfl fun k _ => by rw [h0 k, h1 k]

/-- What point `t` writes back is block `t` of the whole product of the two arrays as the region finds them. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Gcn.rowsDot (M := 100000) (K := 1024) (N := 64) (V c main_arg0) (V c main_arg2)) := by
  show (cfg0.win 2).cut (grid0.coords t) ((dat0 V c).after 2 t) = _
  rw [after0_2]
  unfold out0_2
  rw [View.canon_unit_zero zeros2]
  simp only [View.ld_unit_zero (S := S5000x1024) zeros2, View.ld_unit_zero (S := S1024x64) zeros2]
  obtain ⟨e00, e01, e10, e11, e20, e21⟩ := index_maps t
  funext j
  show k0_pay1 (iblk0 V c 0 t) (iblk0 V c 1 t) j = Cert.Gcn.rowsDot (M := 100000) (K := 1024) (N := 64) (V c main_arg0) (V c main_arg2) (((cfg0.win 2).blk t).view.emb j)
  refine block_entry (V c main_arg0) (V c main_arg2) _ _ j _ (fun k => ?_) (fun k => ?_)
  · show V c main_arg0 (((cfg0.win 0).blk t).view.emb (ix2 (j 0) k)) = V c main_arg0 (ix2 ((((cfg0.win 2).blk t).view.emb j) 0) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 1024 + 1 * k.val = k.val; omega
  · show V c main_arg2 (((cfg0.win 1).blk t).view.emb (ix2 k (j 1))) = V c main_arg2 (ix2 k ((((cfg0.win 2).blk t).view.emb j) 1))
    refine congrArg _ (funext fun a => Fin.ext ?_)
    match a with
    | ⟨0, _⟩ => show win0_1.index t (0 : Fin 2) * 1024 + 1 * k.val = k.val; omega
    | ⟨1, _⟩ => show win0_1.index t (1 : Fin 2) * 64 + 1 * (j 1).val = win0_2.index t (1 : Fin 2) * 64 + 1 * (j 1).val; omega

/-! ## The twenty blocks tile the product

20 × 5000 = 100000: row `r` lies in the block of point `r / 5000`, and every column lies in column block 0. So each
entry of the output array is written by some point, with its entry of the whole product. -/

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every entry of the output array is in the block of the point that owns its row. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e20, e21⟩ := index_maps t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the output array is the whole product of the two argument arrays as the region finds them. -/
theorem arr_eq (V : (c : Dev nD) → (b : Ref sig .tc) → Buf (Elt Ideal) ((c : Thread nD τ).loc b)) (c : Dev nD) :
    (dat0 (F := Ideal) V c).arrAt 2 cfg0.N = Cert.Gcn.rowsDot (M := 100000) (K := 1024) (N := 64) (V c main_arg0) (V c main_arg2) :=
  (dat0 V c).arrAt_eq_of_cover 2 (Cert.Gcn.rowsDot (M := 100000) (K := 1024) (N := 64) (V c main_arg0) (V c main_arg2))
    (fun t _ => flushed_eq V c t) cover

end Cert.KernelIdeal.Region0

end
-- ==== Proof.Region1.lean ====
/-
  The second matrix product of the program: `h · w` for a left factor `h` of 100000 rows and 64 columns and a right
  factor `w` of 64 rows and 32 columns, computed block of rows by block of rows. The grid has 20 points. Point `t`
  reads rows `5000 t … 5000 t + 4999` of `h` and all of `w`, multiplies them into a zero accumulator, and writes the
  5000 × 32 result back as rows `5000 t … 5000 t + 4999` of the output. The cast between equal shapes and the changes
  of float format before the multiplication are the identity on extended reals, so entry `(p, q)` of a point's result
  is `∑ k, h[5000 t + p, k] * w[k, q]`, which is entry `(5000 t + p, q)` of the whole product. The 20 blocks tile the
  output's 100000 rows exactly, so after the region the output array is the whole product `Cert.Gcn.rowsDot h w`.
-/
import proofs.«176696_j38070590112102_1_alg».proof.Proof.Gen.KernelIdeal.Frame
import proofs.«176696_j38070590112102_1_alg».proof.Proof.Spec
import Idealize.ShloMosaic.Lib.Pipeline.Value
import Idealize.ShloMosaic.Lib.ValueIdx
import Idealize.ShloMosaic.PureOps.Ideal.Laws

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-! ## The product of one block of rows, entry by entry -/

/-- The contraction's left operand index keeps the output's row on axis 0. -/
theorem lhs_row (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- … and carries the contraction's coordinate on axis 1. -/
theorem lhs_contr (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
/-- The right operand index carries the contraction's coordinate on axis 0 … -/
theorem rhs_contr (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
/-- … and keeps the output's column on axis 1. -/
theorem rhs_col (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- What the body computes from a block of 5000 rows `x0` and the whole right factor `x1`: at row `p`, column `q`
    the sum over `k` of `x0[p, k] * x1[k, q]`. The cast between equal shapes and the two changes of float format are
    the identity on extended reals, and the accumulator is zero. -/
theorem pay_apply (x0 : Vec Ideal S5000x64 .f32) (x1 : Vec Ideal S64x32 .f32) (p : Fin 5000) (q : Fin 32) :
    k1_pay1 (F := Ideal) x0 x1 (ix2 p q) = ∑ k : Fin 64, x0 (ix2 p k) * x1 (ix2 k q) := by
  unfold k1_pay1
  rw [shapeCast_self]
  simp only [matmul]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact lhs_row _ _
    | ⟨1, _⟩ => exact (lhs_contr _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (rhs_contr _ _).trans hk
    | ⟨1, _⟩ => exact rhs_col _ _)
  rw [el, er]
  rfl

/-! ## Where the blocks sit in their arrays -/

/-- The zero offsets of a load or store of a whole block, as the constant function. -/
theorem hz : (![0, 0] : Fin 2 → Nat) = fun _ => 0 := funext fun a => by fin_cases a <;> rfl

/-- The three index maps over the 20 grid points: at point `t` the left factor's block and the output's block are
    row block `t` (column block 0), and the right factor's block is block (0, 0), the whole of it. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of block `t` is row `5000 t + p` of the array, one of its 100000 rows. -/
theorem row_lt (t : Fin cfg1.N) (p : Fin 5000) : t.val * 5000 + p.val < 100000 := by
  have ht : t.val < 20 := lt_of_lt_of_eq t.isLt N_1
  have hp := p.isLt
  omega

section AtEntry

-- the TensorCore's buffer contents when the region is entered
variable (V : (c : Dev nD) → (b : Ref sig .tc) → Buf (Elt Ideal) ((c : Thread nD τ).loc b))

/-- The left factor's block at point `t`, entry `(p, k)`, is the left factor's entry `(5000 t + p, k)`. -/
theorem lhs_block_apply (c : Dev nD) (t : Fin cfg1.N) (p : Fin 5000) (k : Fin 64) :
    (iblk1 V c 0 t : Vec Ideal S5000x64 .f32) (ix2 p k)
      = (V c main_v47 : S100000x64.Idx → EReal) (ix2 (⟨t.val * 5000 + p.val, row_lt t p⟩ : Fin 100000) k) := by
  obtain ⟨e0, e1, -⟩ := idx_facts t
  unfold iblk1
  rw [View.read_apply]
  show V c main_v47 (((cfg1.win 0).blk t).view.emb (ix2 p k)) = V c main_v47 _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

/-- The right factor's block at every point is the right factor. -/
theorem rhs_block_apply (c : Dev nD) (t : Fin cfg1.N) (k : Fin 64) (q : Fin 32) :
    (iblk1 V c 1 t : Vec Ideal S64x32 .f32) (ix2 k q) = (V c main_arg4 : S64x32.Idx → EReal) (ix2 k q) := by
  obtain ⟨-, -, e0, e1, -⟩ := idx_facts t
  unfold iblk1
  rw [View.read_apply]
  show V c main_arg4 (((cfg1.win 1).blk t).view.emb (ix2 k q)) = V c main_arg4 _
  refine congrArg _ (funext fun a => Fin.ext ?_)
  match a with
  | ⟨0, _⟩ => show win1_1.index t (0 : Fin 2) * 64 + 1 * k.val = k.val; omega
  | ⟨1, _⟩ => show win1_1.index t (1 : Fin 2) * 32 + 1 * q.val = q.val; omega

/-! ## What one point writes back -/

/-- One entry of the body's result is one entry of the whole product: when the block `x0` holds at its row `p`
    the left factor's row `r`, and `x1` holds the right factor's column `q`, the body's entry `(p, q)` is the
    product's entry `(r, q)` — the same sum over `k`, term by term. -/
theorem entry_eq (A : S100000x64.Idx → EReal) (W : S64x32.Idx → EReal) (x0 : Vec Ideal S5000x64 .f32) (x1 : Vec Ideal S64x32 .f32)
    (p : Fin 5000) (q : Fin 32) (r : Fin 100000)
    (h0 : ∀ k : Fin 64, x0 (ix2 p k) = A (ix2 r k)) (h1 : ∀ k : Fin 64, x1 (ix2 k q) = W (ix2 k q))
    (j : S5000x32.Idx) (i : S100000x32.Idx) (hj : j = ix2 p q) (hi : i = ix2 r q) :
    k1_pay1 (F := Ideal) x0 x1 j = Cert.Gcn.rowsDot (M := 100000) (K := 64) (N := 32) A W i := by
  subst hj hi
  rw [pay_apply, Cert.Gcn.rowsDot_apply]
  exact Finset.sum_congr rfl fun k _ => by rw [h0 k, h1 k]

/-- What point `t` writes back is block `t` of the whole product of the two factors as the region finds them: the body's
    one store leaves its payload, its loads read the two input blocks, and each entry is `entry_eq`'s, the input
    blocks read where the output block's rows say. -/
theorem flushed_eq (c : Dev nD) (t : Fin cfg1.N) :
    (dat1 (F := Ideal) V c).flushed 2 t
      = ((cfg1.win 2).blk t).view.read (Elt Ideal) (Cert.Gcn.rowsDot (M := 100000) (K := 64) (N := 32) (V c main_v47) (V c main_arg4)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x32) hz]
  funext j
  have hj0 : (j 0).val < 5000 := (j 0).isLt
  have hj1 : (j 1).val < 32 := (j 1).isLt
  obtain ⟨-, -, -, -, e0, e1⟩ := idx_facts t
  show k1_pay1 (F := Ideal) (iblk1 V c 0 t) (iblk1 V c 1 t) ((win1 2).xinj (grid1.coords t) j)
    = Cert.Gcn.rowsDot (M := 100000) (K := 64) (N := 32) (V c main_v47) (V c main_arg4) (((cfg1.win 2).blk t).view.emb j)
  exact entry_eq (V c main_v47) (V c main_arg4) (iblk1 V c 0 t) (iblk1 V c 1 t)
    ⟨(j 0).val, hj0⟩ ⟨(j 1).val, hj1⟩ ⟨t.val * 5000 + (j 0).val, row_lt t ⟨(j 0).val, hj0⟩⟩
    (fun k => lhs_block_apply V c t ⟨(j 0).val, hj0⟩ k) (fun k => rhs_block_apply V c t k ⟨(j 1).val, hj1⟩)
    ((win1 2).xinj (grid1.coords t) j) (((cfg1.win 2).blk t).view.emb j)
    (funext fun a => Fin.ext (by
      match a with
      | ⟨0, _⟩ => rfl
      | ⟨1, _⟩ => rfl))
    (funext fun a => Fin.ext (by
      match a with
      | ⟨0, _⟩ => show win1_2.index t (0 : Fin 2) * 5000 + 1 * (j 0).val = t.val * 5000 + (j 0).val; omega
      | ⟨1, _⟩ => show win1_2.index t (1 : Fin 2) * 32 + 1 * (j 1).val = (j 1).val; omega))

end AtEntry

/-! ## The blocks tile the output, so the array ends holding the whole product -/

/-- An entry of the output array lies in point `t`'s block exactly when, on each axis, its coordinate lies in the
    block's range: from the block index times the block's size, for the block's size. -/
theorem mem_blk (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v48).slice (win1_2.rect t)).set ↔ _
  rw [View.set_slice_whole, Rect.mem_set_unit]
  exact Iff.rfl

/-- Every entry of the output array is written back by some point: row `r` by point `r / 5000`, since
    `20 * 5000 = 100000` and each block spans all 32 columns. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, e0, e1⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 32 ≤ (i 1).val ∧ (i 1).val < win1_2.index t (1 : Fin 2) * 32 + 32; omega

/-- After the region the output array is the product of the left factor and the right factor as the region found
    them: every point writes back its block of rows of the product, and the 20 blocks of 5000 rows tile the 100000
    rows. -/
theorem arr_eq (V : (c : Dev nD) → (b : Ref sig .tc) → Buf (Elt Ideal) ((c : Thread nD τ).loc b)) (c : Dev nD) :
    (dat1 (F := Ideal) V c).arrAt 2 cfg1.N = Cert.Gcn.rowsDot (M := 100000) (K := 64) (N := 32) (V c main_v47) (V c main_arg4) :=
  (dat1 (F := Ideal) V c).arrAt_eq_of_cover 2 (Cert.Gcn.rowsDot (M := 100000) (K := 64) (N := 32) (V c main_v47) (V c main_arg4))
    (fun t _ => flushed_eq V c t) cover

end Cert.KernelIdeal.Region1

end
-- ==== Proof.KernelValue.lean ====
/-
  The kernel program's result as one expression of its arguments, at the extended reals: the second layer of the
  product of (the first layer of the product of the features with the first weights) with the second weights,
  each product the whole matrix product. The two row-blocked products leave whole products in their output arrays
  (every block of 5,000 rows is written once and the twenty blocks tile the 100,000 rows); the host arithmetic
  around them is read back stretch by stretch.
-/
import proofs.«176696_j38070590112102_1_alg».proof.Proof.KernelHost
import proofs.«176696_j38070590112102_1_alg».proof.Proof.Region0
import proofs.«176696_j38070590112102_1_alg».proof.Proof.Region1

set_option maxRecDepth 16384

noncomputable section

namespace Cert.KernelIdeal.HostRead

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- What the program's result buffer holds at the last boundary. -/
theorem result_value (c : Dev nD) :
    W8 m ρ c (Proc.devRef .tc main_v64)
      = Cert.Gcn.output (F := Ideal) (m ((c.tc : Thread nD τ).loc main_arg1)) (m ((c.tc : Thread nD τ).loc main_arg5))
          (Cert.Gcn.rowsDot (M := 100000) (K := 64) (N := 32)
            (Cert.Gcn.hidden (F := Ideal) (m ((c.tc : Thread nD τ).loc main_arg1)) (m ((c.tc : Thread nD τ).loc main_arg3))
              (Cert.Gcn.rowsDot (M := 100000) (K := 1024) (N := 64) (m ((c.tc : Thread nD τ).loc main_arg0)) (m ((c.tc : Thread nD τ).loc main_arg2))))
            (m ((c.tc : Thread nD τ).loc main_arg4))) := by
  have h47 : V6 m ρ c main_v47 = _ := hidden_entry m ρ c
  have h4 : V6 m ρ c main_arg4 = _ := w2_second m ρ c
  have h0 : V3 m ρ c main_arg0 = _ := x_entry m ρ c
  have h2 : V3 m ρ c main_arg2 = _ := w1_entry m ρ c
  rw [result_exit, Cert.KernelIdeal.Region1.arr_eq (V6 m ρ) c, h47, h4, Cert.KernelIdeal.Region0.arr_eq (V3 m ρ) c, h0, h2]

end Cert.KernelIdeal.HostRead

end
-- ==== Proof.RefTerm.lean ====
/-
  The reference program's result as the same expression: its run ends with the result at the composed term of the
  arguments, that term is the last stage of its operations, and the last stage is the second layer of the
  contraction of (the first layer of the contraction of the features with the first weights) with the second
  weights. At the extended reals each contraction is the matrix product.
-/
import proofs.«176696_j38070590112102_1_alg».proof.Defs
import proofs.«176696_j38070590112102_1_alg».proof.Proof.Gen.ReferenceIdeal
import proofs.«176696_j38070590112102_1_alg».proof.Proof.RefRun
import proofs.«176696_j38070590112102_1_alg».proof.Proof.RefRead
import proofs.«176696_j38070590112102_1_alg».proof.Proof.Stages

noncomputable section

namespace Cert.ReferenceIdeal.RefValue

open Cert.ReferenceIdeal Cert.ReferenceIdeal.Gen Idealize.ShloMosaic Idealize.ShloMosaic.TcCoe Idealize.SL.Sem

variable (m : (ℓ : Loc nD τ sig) → Buf (Elt Ideal) ℓ)

/-- The reference's result term, at the extended reals. -/
theorem result_value (c : Dev nD) :
    Cert.ReferenceIdeal.ValueP.res_main_v87 (F := Ideal) m c
      = Cert.Gcn.output (F := Ideal) (m ((c.tc : Thread nD τ).loc main_arg1)) (m ((c.tc : Thread nD τ).loc main_arg5))
          (Cert.Gcn.rowsDot (M := 100000) (K := 64) (N := 32)
            (Cert.Gcn.hidden (F := Ideal) (m ((c.tc : Thread nD τ).loc main_arg1)) (m ((c.tc : Thread nD τ).loc main_arg3))
              (Cert.Gcn.rowsDot (M := 100000) (K := 1024) (N := 64) (m ((c.tc : Thread nD τ).loc main_arg0)) (m ((c.tc : Thread nD τ).loc main_arg2))))
            (m ((c.tc : Thread nD τ).loc main_arg4))) := by
  rw [Cert.ReferenceIdeal.ReadP.val_main_v87_eq, Cert.Gcn.ref_output, Cert.Gcn.dot1024_eq, Cert.Gcn.dot64_eq]

end Cert.ReferenceIdeal.RefValue

end
-- ==== Proof.lean ====
/-
  The certificate: a two-layer graph convolution whose two dense transforms run as row-blocked matrix products on
  the accelerator, against the same network written with whole contractions.

  Both programs compute `output (hidden (x · W1) · W2)`: `hidden` and `output` are the two layers' aggregation
  (gather the source rows of the 1,700,000 edges, scale by `norm`, scatter-add into the destination rows, add the
  bias; a rectifier after the first), identical host arithmetic in the two programs. They differ only in how a
  product `A · B` of a 100,000-row matrix is formed: the kernel cuts `A` into twenty blocks of 5,000 rows, casts
  the operands to a narrower format (the identity over the extended reals), multiplies each block into a zero
  accumulator and writes it as the matching block of the result; the reference contracts once. Entry `[r, q]` is
  in both the sum over `k` of `A[r, k] · B[k, q]`, a finite sum in a commutative monoid, so no finiteness of the
  inputs is used: the two results are one function of the arguments.

  The three frames: the kernel programs' from their launch over the two regions, the reference's from its run
  with the result dropped. No operation was rewritten by the idealization, so that conjunct is trivial.
-/
import proofs.«176696_j38070590112102_1_alg».proof.Defs
import proofs.«176696_j38070590112102_1_alg».proof.Proof.Gen.Kernel
import proofs.«176696_j38070590112102_1_alg».proof.Proof.Gen.Kernel.Skeleton
import proofs.«176696_j38070590112102_1_alg».proof.Proof.Gen.Kernel.Launch
import proofs.«176696_j38070590112102_1_alg».proof.Proof.Gen.Kernel.Points
import proofs.«176696_j38070590112102_1_alg».proof.Proof.Gen.Kernel.Frame
import proofs.«176696_j38070590112102_1_alg».proof.Proof.Gen.KernelIdeal
import proofs.«176696_j38070590112102_1_alg».proof.Proof.Gen.KernelIdeal.Skeleton
import proofs.«176696_j38070590112102_1_alg».proof.Proof.Gen.KernelIdeal.Launch
import proofs.«176696_j38070590112102_1_alg».proof.Proof.Gen.KernelIdeal.Points
import proofs.«176696_j38070590112102_1_alg».proof.Proof.Gen.KernelIdeal.Frame
import proofs.«176696_j38070590112102_1_alg».proof.Proof.Gen.ReferenceIdeal
import proofs.«176696_j38070590112102_1_alg».proof.Proof.Gen.Pre_finite_inputs
import proofs.«176696_j38070590112102_1_alg».proof.Proof.KernelRun
import proofs.«176696_j38070590112102_1_alg».proof.Proof.KernelValue
import proofs.«176696_j38070590112102_1_alg».proof.Proof.RefTerm
import Idealize.ShloMosaic.Adequacy
import Idealize.ShloMosaic.Init

noncomputable section

namespace Cert.Proof

open Idealize.ShloMosaic Idealize.SL.Sem

/-- The kernel program as printed runs, and leaves its arguments as launched. -/
theorem frame_kernel : Cert.frame_Kernel := fun m ρ _ => Cert.Kernel.Gen.frame m ρ

/-- The idealized kernel program runs, and leaves its arguments as launched. -/
theorem frame_kernelIdeal : Cert.frame_KernelIdeal := fun m ρ _ => Cert.KernelIdeal.Gen.frame m ρ

/-- The reference runs, and leaves its arguments as launched: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the six arguments the two programs end with the same result: each ends at
    `output (hidden (x · W1) · W2)` of its own arguments, and the arguments agree. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.GenP.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v87 (F := Ideal) m' c
      = Cert.KernelIdeal.Gen.W8 m ρ c (Proc.devRef .tc Cert.KernelIdeal.main_v64)
  rw [Cert.ReferenceIdeal.RefValue.result_value, Cert.KernelIdeal.HostRead.result_value,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
